-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S16384x64 : Shape := ⟨2, ![16384, 64]⟩
abbrev S16384x256 : Shape := ⟨2, ![16384, 256]⟩
abbrev S64x256 : Shape := ⟨2, ![64, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x64, .f32⟩
  | .local _ .vmem, ⟨0, _⟩ => ⟨S16384x256, .f32⟩
  | .local _ .vmem, ⟨1, _⟩ => ⟨S16384x256, .f32⟩
  | .local _ .vmem, ⟨2, _⟩ => ⟨S64x256, .f32⟩
  | .local _ .vmem, ⟨3, _⟩ => ⟨S64x256, .f32⟩
  | .local _ .vmem, ⟨4, _⟩ => ⟨S16384x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let c7_i32 : BitVec 32 := 7#32
  let v9 : BitVec 1 := Scalar.cmpi .slt arg0 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg0 : BitVec 32 := BitVec.ofNat 32 (i 0).val
  let c7_i32_6 : BitVec 32 := 7#32
  let v13 : BitVec 1 := Scalar.cmpi .eq arg0 c7_i32_6
  let v_true : BitVec 1 := 1#1
  let v14 : BitVec 1 := Scalar.andi v13 v_true
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S16384x256_S16384x256_0_0 : ∀ a, (![0, 0] : Fin 2 → Nat) a + S16384x256.size a ≤ S16384x256.size a
  h_S16384x256 : 0 < S16384x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  dot_S16384x256_S64x256_S16384x64_1_1_0_0_n_n_wf : DotDims.WF S16384x256 S64x256 S16384x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x256.size a ≤ S16384x2048.size a
  hwx0_0 : ∀ i : grid0.Coords, EltTy.bits .f32 = 32 ∨ (Rect.block (s := S16384x2048) S16384x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x2048.size a
  hwx0_1 : ∀ i : grid0.Coords, EltTy.bits .f32 = 32 ∨ (Rect.block (s := S64x2048) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .f32 = 32 ∨ (Rect.block (s := S16384x64) S16384x64.size (cc0_transform_2 i) (hinb0_2 i)).WholeWords (EltTy.packing .f32)

variable [Facts₀]

def dot_S16384x256_S64x256_S16384x64_1_1_0_0_n_n : DotDims S16384x256 S64x256 S16384x64 where
  lhsContracting := [1]
  rhsContracting := [1]
  lhsNonContracting := [0]
  rhsNonContracting := [0]
  lhsBatch := []
  rhsBatch := []
  wf := dot_S16384x256_S64x256_S16384x64_1_1_0_0_n_n_wf

abbrev win0_0 : Pipeline.Window sig grid0 :=
  Pipeline.Window.ofSpec (Memref.whole main_arg0) S16384x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16384x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384x64, .f32⟩
  | .hbm, ⟨6, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S_S16384x64 : S_.BroadcastsInDim S16384x64 (![] : Fin 0 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.K.Cases.lean ====
/-
  The three branches of the router body, decided over the eight grid points.

  The grid walks the contraction axis in eight strips of 256 columns.  The body's three
  conditionals are scalar chains over the strip number k: the first holds exactly at k = 0
  (the output block is overwritten with the strip's partial product), the second exactly at
  0 < k < 7 (the partial product is added to the block), the third exactly at k = 7 (added,
  then clamped below at zero).  Exactly one of them holds at every point, so the output
  window is never idle.
-/
import proofs.«181578_g72438918414737_cont_9to1c4b_115_19_alg».proof.Proof.Gen.Kernel.Frame
import proofs.«181578_g72438918414737_cont_9to1c4b_115_19_alg».proof.Proof.Gen.Kernel.Skeleton
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional holds at strip 0 only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)

/-- The second conditional holds at the inner strips 1, …, 6 only. -/
theorem cond2_iff : ∀ t : Fin cfg0.N, k0_cond2 (grid0.coords t) = 1#1 ↔ (0 < t.val ∧ t.val < 7) :=
  (by decide +kernel : ∀ t : Fin grid0.N, k0_cond2 (grid0.coords t) = 1#1 ↔ (0 < t.val ∧ t.val < 7))

/-- The third conditional holds at the last strip only. -/
theorem cond3_iff : ∀ t : Fin cfg0.N, k0_cond3 (grid0.coords t) = 1#1 ↔ t.val = 7 :=
  (by decide +kernel : ∀ t : Fin grid0.N, k0_cond3 (grid0.coords t) = 1#1 ↔ t.val = 7)

/-- Some conditional holds at every strip: the output window is live everywhere. -/
theorem live2 : ∀ t : Fin cfg0.N, cfg0.idle 2 (cfg0.grid.coords t) = false :=
  (by decide +kernel : ∀ t : Fin grid0.N, idle0 2 (grid0.coords t) = false)

/-- The staging memrefs the pipeline hands the body at strip `t`, and their wholeness. -/
abbrev xs (t : Fin cfg0.N) : Memref sig .tc .vmem S16384x256 .f32 := win0_0.stage (cfg0.slots t 0)
abbrev hxs (t : Fin cfg0.N) : (xs t).IsWhole := hstage0_0 ((cfg0.slots t 0).cast nbuf0_0)
abbrev ws (t : Fin cfg0.N) : Memref sig .tc .vmem S64x256 .f32 := win0_1.stage (cfg0.slots t 1)
abbrev hws (t : Fin cfg0.N) : (ws t).IsWhole := hstage0_1 ((cfg0.slots t 1).cast nbuf0_1)
abbrev os (t : Fin cfg0.N) : Memref sig .tc .vmem S16384x64 .f32 := win0_2.stage (cfg0.slots t 2)
abbrev hos (t : Fin cfg0.N) : (os t).IsWhole := hstage0_2 ((cfg0.slots t 2).cast nbuf0_2)

/-- The zero offsets of the whole-buffer rectangles, as a constant function. -/
theorem off0 : (![0, 0] : Fin 2 → Nat) = fun _ => 0 := by
  funext a; match a with | ⟨0, _⟩ => rfl | ⟨1, _⟩ => rfl

end Cert.Kernel.Hand

end
-- ==== Proof.K.RunFirst.lean ====
/-
  The router body at the first strip (k = 0).

  Only the first conditional is taken: the body loads the strip of x and the strip of W, forms their
  partial product (each row of x against each row of W over the strip's 256 columns) and overwrites the
  whole output block with it.  Whatever the block held before is gone.
-/
import proofs.«181578_g72438918414737_cont_9to1c4b_115_19_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the strips `x` and `w`, the output memref at anything, the body at a
    point where only the first conditional holds ends with the strips as they were and the output memref at
    the strip's partial product. -/
theorem run_first (c : Dev nD) (i : grid0.Coords)
    (a1 : Memref sig .tc .vmem S16384x256 .f32) (h1 : a1.IsWhole) (a2 : Memref sig .tc .vmem S64x256 .f32) (h2 : a2.IsWhole)
    (a3 : Memref sig .tc .vmem S16384x64 .f32) (h3 : a3.IsWhole)
    (hc1 : k0_cond1 i = 1#1) (hc2 : ¬k0_cond2 i = 1#1) (hc3 : ¬k0_cond3 i = 1#1)
    (x : Vec F S16384x256 .f32) (w : Vec F S64x256 .f32) (E : Set ℕ) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__router_kernel i a1 h1 a2 h2 a3 h3) K := by
  simp only [cc0__router_kernel_eq_skeleton]; unfold cc0__router_kernel_skel
  unfold owns
  iintro ⟨⟨%f1, %hf1, H1⟩, ⟨%f2, %hf2, H2⟩, ⟨%d3, %f3, -, H3⟩, Hk⟩
  obtain rfl := h1.eq_unread hf1; obtain rfl := h2.eq_unread hf2
  sl_exec (disch := first | exact hc1 | exact hc2 | exact hc3)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_eq_canon _ _ _ (fun y => ⟨_, List.mem_singleton_self _, View.mem_set_unit_zero off0 inb_S16384x64_S16384x64_0_0 y⟩),
    View.canon_unit_zero off0]
  simp only [View.readAt_eq_ld, h1.read_unread, h2.read_unread, View.ld_unit_zero (S := S16384x256) off0,
    View.ld_unit_zero (S := S64x256) off0, View.ld_unit_zero (S := S16384x64) off0]

end Cert.Kernel.Hand

end
-- ==== Proof.K.RunMid.lean ====
/-
  The router body at an inner strip (0 < k < 7).

  Only the second conditional is taken: the body reads the output block back (the running sum of the
  earlier strips' partial products), adds this strip's partial product, and stores the sum over the
  whole block.
-/
import proofs.«181578_g72438918414737_cont_9to1c4b_115_19_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the strips `x` and `w` and the running sum `acc`, the body at a point
    where only the second conditional holds ends with the strips as they were and the output memref at the
    running sum plus the strip's partial product. -/
theorem run_mid (c : Dev nD) (i : grid0.Coords)
    (a1 : Memref sig .tc .vmem S16384x256 .f32) (h1 : a1.IsWhole) (a2 : Memref sig .tc .vmem S64x256 .f32) (h2 : a2.IsWhole)
    (a3 : Memref sig .tc .vmem S16384x64 .f32) (h3 : a3.IsWhole)
    (hc1 : ¬k0_cond1 i = 1#1) (hc2 : k0_cond2 i = 1#1) (hc3 : ¬k0_cond3 i = 1#1)
    (x : Vec F S16384x256 .f32) (w : Vec F S64x256 .f32) (acc : Vec F S16384x64 .f32) (E : Set ℕ) (K : PUnit → sProp 𝕄) :
    iprop(owns (c : Thread nD τ) a1 fullShare x ∗ owns (c : Thread nD τ) a2 fullShare w ∗ owns (c : Thread nD τ) a3 fullShare acc
        ∗ (iprop(owns (c : Thread nD τ) a1 fullShare x ∗ owns (c : Thread nD τ) a2 fullShare w
            ∗ owns (c : Thread nD τ) a3 fullShare (k0_pay2 x w acc)) -∗ K ⟨⟩))
      ⊢ wp frame (wpE (defs₀ (F := F)) Variants.none c none) E (cc0__router_kernel i a1 h1 a2 h2 a3 h3) K := by
  simp only [cc0__router_kernel_eq_skeleton]; unfold cc0__router_kernel_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec (disch := first | exact hc1 | exact hc2 | exact hc3)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_eq_canon _ _ _ (fun y => ⟨_, List.mem_singleton_self _, View.mem_set_unit_zero off0 inb_S16384x64_S16384x64_0_0 y⟩),
    View.canon_unit_zero off0]
  simp only [View.readAt_eq_ld, h1.read_unread, h2.read_unread, h3.read_unread, View.ld_unit_zero (S := S16384x256) off0,
    View.ld_unit_zero (S := S64x256) off0, View.ld_unit_zero (S := S16384x64) off0]

end Cert.Kernel.Hand

end
-- ==== Proof.K.RunLast.lean ====
/-
  The router body at the last strip (k = 7).

  Only the third conditional is taken: the body reads the running sum back, adds the last strip's
  partial product, takes the maximum with zero entry by entry, and stores that over the whole block.
-/
import proofs.«181578_g72438918414737_cont_9to1c4b_115_19_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the strips `x` and `w` and the running sum `acc`, the body at a point
    where only the third conditional holds ends with the strips as they were and the output memref at the
    running sum plus the strip's partial product, clamped below at zero. -/
theorem run_last (c : Dev nD) (i : grid0.Coords)
    (a1 : Memref sig .tc .vmem S16384x256 .f32) (h1 : a1.IsWhole) (a2 : Memref sig .tc .vmem S64x256 .f32) (h2 : a2.IsWhole)
    (a3 : Memref sig .tc .vmem S16384x64 .f32) (h3 : a3.IsWhole)
    (hc1 : ¬k0_cond1 i = 1#1) (hc2 : ¬k0_cond2 i = 1#1) (hc3 : k0_cond3 i = 1#1)
    (x : Vec F S16384x256 .f32) (w : Vec F S64x256 .f32) (acc : Vec F S16384x64 .f32) (E : Set ℕ) (K : PUnit → sProp 𝕄) :
    iprop(owns (c : Thread nD τ) a1 fullShare x ∗ owns (c : Thread nD τ) a2 fullShare w ∗ owns (c : Thread nD τ) a3 fullShare acc
        ∗ (iprop(owns (c : Thread nD τ) a1 fullShare x ∗ owns (c : Thread nD τ) a2 fullShare w
            ∗ owns (c : Thread nD τ) a3 fullShare (k0_pay3 x w acc)) -∗ K ⟨⟩))
      ⊢ wp frame (wpE (defs₀ (F := F)) Variants.none c none) E (cc0__router_kernel i a1 h1 a2 h2 a3 h3) K := by
  simp only [cc0__router_kernel_eq_skeleton]; unfold cc0__router_kernel_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec (disch := first | exact hc1 | exact hc2 | exact hc3)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_eq_canon _ _ _ (fun y => ⟨_, List.mem_singleton_self _, View.mem_set_unit_zero off0 inb_S16384x64_S16384x64_0_0 y⟩),
    View.canon_unit_zero off0]
  simp only [View.readAt_eq_ld, h1.read_unread, h2.read_unread, h3.read_unread, View.ld_unit_zero (S := S16384x256) off0,
    View.ld_unit_zero (S := S64x256) off0, View.ld_unit_zero (S := S16384x64) off0]

end Cert.Kernel.Hand

end
-- ==== Proof.K.Body.lean ====
/-
  The frame of the router kernel: its run over the eight strips.

  The output block is one whole-array block whose index never moves; it is written back after the last
  strip only.  Between strips its staging buffer carries the running sum: after strip 0 the first partial
  product, after strip k (0 < k < 7) the sum so far plus strip k's partial product, after strip 7 that
  sum clamped below at zero.  `accAt` names these contents by recursion on the strip, and the body's
  three runs (one per conditional) carry one `accAt` to the next.  The two input windows are fetched at
  every strip and only read.
-/
import proofs.«181578_g72438918414737_cont_9to1c4b_115_19_alg».proof.Proof.K.RunFirst
import proofs.«181578_g72438918414737_cont_9to1c4b_115_19_alg».proof.Proof.K.RunMid
import proofs.«181578_g72438918414737_cont_9to1c4b_115_19_alg».proof.Proof.K.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Strip `t` of x: rows 0..16383, columns 256·t .. 256·t + 255. -/
abbrev xstrip (c : Dev nD) (t : Fin cfg0.N) : Vec F S16384x256 .f32 := iblk m c 0 t
/-- Strip `t` of W: rows 0..63, columns 256·t .. 256·t + 255. -/
abbrev wstrip (c : Dev nD) (t : Fin cfg0.N) : Vec F S64x256 .f32 := iblk m c 1 t

/-- What the output block's staging buffer holds after strip `n`: the first partial product, then the running
    sum, and after the last strip the running sum clamped below at zero. -/
def accAt (c : Dev nD) : (n : ℕ) → n < cfg0.N → Vec F S16384x64 .f32
  | 0, h => k0_pay1 (xstrip m c ⟨0, h⟩) (wstrip m c ⟨0, h⟩)
  | n + 1, h =>
    if n + 1 = 7 then k0_pay3 (xstrip m c ⟨n + 1, h⟩) (wstrip m c ⟨n + 1, h⟩) (accAt c n (Nat.lt_of_succ_lt h))
    else k0_pay2 (xstrip m c ⟨n + 1, h⟩) (wstrip m c ⟨n + 1, h⟩) (accAt c n (Nat.lt_of_succ_lt h))

theorem accAt_first (c : Dev nD) (t : Fin cfg0.N) (h0 : t.val = 0) :
    accAt m c t.val t.isLt = k0_pay1 (xstrip m c t) (wstrip m c t) := by
  obtain ⟨n, hn⟩ := t
  cases n with
  | zero => rfl
  | succ n => exact absurd h0 (Nat.succ_ne_zero n)

theorem accAt_mid (c : Dev nD) (t : Fin cfg0.N) (h0 : t.val ≠ 0) (h7 : t.val ≠ 7) :
    accAt m c t.val t.isLt = k0_pay2 (xstrip m c t) (wstrip m c t)
      (accAt m c (t.val - 1) (Nat.lt_of_le_of_lt (Nat.sub_le _ _) t.isLt)) := by
  obtain ⟨n, hn⟩ := t
  cases n with
  | zero => exact absurd rfl h0
  | succ n => exact (if_neg h7).trans rfl

theorem accAt_last (c : Dev nD) (t : Fin cfg0.N) (h7 : t.val = 7) :
    accAt m c t.val t.isLt = k0_pay3 (xstrip m c t) (wstrip m c t)
      (accAt m c (t.val - 1) (Nat.lt_of_le_of_lt (Nat.sub_le _ _) t.isLt)) := by
  obtain ⟨n, hn⟩ := t
  cases n with
  | zero => exact absurd h7 (by show ¬(0 : ℕ) = 7; decide)
  | succ n => exact (if_pos h7).trans rfl

/-- The proof data of the pipeline on core `c`: the arrays as the region finds them; after the body each input's
    buffer at its strip and the output's at `accAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = accAt m c t.val t.isLt := by dsimp only [dats]

/-- Each input's current staging buffer holds its strip at every point. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- The output window is live at every grid coordinate. -/
theorem live2_all : ∀ i : cfg0.grid.Coords, cfg0.idle 2 i = false := by
  intro i
  show (!(k0_cond1 i == 1#1) && !(k0_cond2 i == 1#1) && !(k0_cond3 i == 1#1)) = false
  unfold k0_cond1 k0_cond2 k0_cond3
  dsimp only
  generalize i 0 = v
  revert v
  decide +kernel

/-- After the first strip the output's staging buffer holds what the strip before left: the block is not written
    back before the last strip, and the window is live and uncut. -/
theorem before_o (c : Dev nD) (t : Fin cfg0.N) (h0 : t.val ≠ 0) (d) :
    (dats m 0 c).before 2 t d = accAt m c (t.val - 1) (Nat.lt_of_le_of_lt (Nat.sub_le _ _) t.isLt) := by
  have hN : t.val < 8 := lt_of_lt_of_eq t.isLt (show cfg0.N = 8 from N_0)
  rw [Dat.before_out_kept _ 2 rfl t h0 (Bool.eq_false_iff.mpr fun h => by have := (flush0_2 _).mp h; dsimp only at this; omega)
    live2_all (fun _ _ => rfl)]
  dsimp only [dats]

/-- What the body is called with at strip `t`, -/
def bodyPre (c : Dev nD) (t : Fin cfg0.N) : sProp 𝕄 :=
  iprop((dats m 0 c).Φ t.castSucc ∗ (dats m 0 c).owesAt () t.castSucc
    ∗ (∃ d, owns (c : Thread nD τ) (xs t) fullShare ((dats m 0 c).before 0 t d))
    ∗ (∃ d, owns (c : Thread nD τ) (ws t) fullShare ((dats m 0 c).before 1 t d))
    ∗ (∃ d, owns (c : Thread nD τ) (os t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (xs t) fullShare ((dats m 0 c).after 0 t)
    ∗ owns (c : Thread nD τ) (ws t) fullShare ((dats m 0 c).after 1 t)
    ∗ owns (c : Thread nD τ) (os t) fullShare ((dats m 0 c).after 2 t))

set_option maxHeartbeats 800000 in
/-- The body at any strip: the inputs' memrefs hold their strips; the strip number says which conditional is taken;
    after the first strip the output's memref holds the running sum; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  have hN : t.val < 8 := lt_of_lt_of_eq t.isLt (show cfg0.N = 8 from N_0)
  by_cases h0 : t.val = 0
  · rw [accAt_first m c t h0]
    iintro ⟨HΦ, Ho, ⟨%d0, H0⟩, ⟨%d1, H1⟩, ⟨%d2, H2⟩⟩
    iapply (run_first c (grid0.coords t) _ _ _ _ _ _ ((cond1_iff t).mpr h0)
      (fun h => by have := (cond2_iff t).mp h; omega) (fun h => by have := (cond3_iff t).mp h; omega)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_o m c t h0]
    by_cases h7 : t.val = 7
    · rw [accAt_last m c t h7]
      iintro ⟨HΦ, Ho, ⟨%d0, H0⟩, ⟨%d1, H1⟩, ⟨%d2, H2⟩⟩
      iapply (run_last c (grid0.coords t) _ _ _ _ _ _ (fun h => h0 ((cond1_iff t).mp h))
        (fun h => by have := (cond2_iff t).mp h; omega) ((cond3_iff t).mpr h7)
        (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [accAt_mid m c t h0 h7]
      iintro ⟨HΦ, Ho, ⟨%d0, H0⟩, ⟨%d1, H1⟩, ⟨%d2, H2⟩⟩
      iapply (run_mid c (grid0.coords t) _ _ _ _ _ _ (fun h => h0 ((cond1_iff t).mp h))
        ((cond2_iff t).mpr ⟨Nat.pos_of_ne_zero h0, by omega⟩) (fun h => h7 ((cond3_iff t).mp h))
        (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every strip. -/
theorem body_obligation (c : Dev nD) : BodyObligation (dats (F := F) m 0 c) (defs₀ (F := F)) Variants.none () Set.univ := fun t => by
  rw [bigSep_W0, bigSep_W0, live2 t]
  exact sound_body m c t

set_option backward.isDefEq.respectTransparency.types false in
/-- Every weakly fair execution of @main terminates, every array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/-
  The three branches of the router body, decided over the eight grid points.

  The grid walks the contraction axis in eight strips of 256 columns.  The body's three
  conditionals are scalar chains over the strip number k: the first holds exactly at k = 0
  (the output block is overwritten with the strip's partial product), the second exactly at
  0 < k < 7 (the partial product is added to the block), the third exactly at k = 7 (added,
  then clamped below at zero).  Exactly one of them holds at every point, so the output
  window is never idle.
-/
import proofs.«181578_g72438918414737_cont_9to1c4b_115_19_alg».proof.Proof.Gen.KernelIdeal.Frame
import proofs.«181578_g72438918414737_cont_9to1c4b_115_19_alg».proof.Proof.Gen.KernelIdeal.Skeleton
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional holds at strip 0 only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)

/-- The second conditional holds at the inner strips 1, …, 6 only. -/
theorem cond2_iff : ∀ t : Fin cfg0.N, k0_cond2 (grid0.coords t) = 1#1 ↔ (0 < t.val ∧ t.val < 7) :=
  (by decide +kernel : ∀ t : Fin grid0.N, k0_cond2 (grid0.coords t) = 1#1 ↔ (0 < t.val ∧ t.val < 7))

/-- The third conditional holds at the last strip only. -/
theorem cond3_iff : ∀ t : Fin cfg0.N, k0_cond3 (grid0.coords t) = 1#1 ↔ t.val = 7 :=
  (by decide +kernel : ∀ t : Fin grid0.N, k0_cond3 (grid0.coords t) = 1#1 ↔ t.val = 7)

/-- Some conditional holds at every strip: the output window is live everywhere. -/
theorem live2 : ∀ t : Fin cfg0.N, cfg0.idle 2 (cfg0.grid.coords t) = false :=
  (by decide +kernel : ∀ t : Fin grid0.N, idle0 2 (grid0.coords t) = false)

/-- The staging memrefs the pipeline hands the body at strip `t`, and their wholeness. -/
abbrev xs (t : Fin cfg0.N) : Memref sig .tc .vmem S16384x256 .f32 := win0_0.stage (cfg0.slots t 0)
abbrev hxs (t : Fin cfg0.N) : (xs t).IsWhole := hstage0_0 ((cfg0.slots t 0).cast nbuf0_0)
abbrev ws (t : Fin cfg0.N) : Memref sig .tc .vmem S64x256 .f32 := win0_1.stage (cfg0.slots t 1)
abbrev hws (t : Fin cfg0.N) : (ws t).IsWhole := hstage0_1 ((cfg0.slots t 1).cast nbuf0_1)
abbrev os (t : Fin cfg0.N) : Memref sig .tc .vmem S16384x64 .f32 := win0_2.stage (cfg0.slots t 2)
abbrev hos (t : Fin cfg0.N) : (os t).IsWhole := hstage0_2 ((cfg0.slots t 2).cast nbuf0_2)

/-- The zero offsets of the whole-buffer rectangles, as a constant function. -/
theorem off0 : (![0, 0] : Fin 2 → Nat) = fun _ => 0 := by
  funext a; match a with | ⟨0, _⟩ => rfl | ⟨1, _⟩ => rfl

end Cert.KernelIdeal.Hand

end
-- ==== Proof.KI.RunFirst.lean ====
/-
  The router body at the first strip (k = 0).

  Only the first conditional is taken: the body loads the strip of x and the strip of W, forms their
  partial product (each row of x against each row of W over the strip's 256 columns) and overwrites the
  whole output block with it.  Whatever the block held before is gone.
-/
import proofs.«181578_g72438918414737_cont_9to1c4b_115_19_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the strips `x` and `w`, the output memref at anything, the body at a
    point where only the first conditional holds ends with the strips as they were and the output memref at
    the strip's partial product. -/
theorem run_first (c : Dev nD) (i : grid0.Coords)
    (a1 : Memref sig .tc .vmem S16384x256 .f32) (h1 : a1.IsWhole) (a2 : Memref sig .tc .vmem S64x256 .f32) (h2 : a2.IsWhole)
    (a3 : Memref sig .tc .vmem S16384x64 .f32) (h3 : a3.IsWhole)
    (hc1 : k0_cond1 i = 1#1) (hc2 : ¬k0_cond2 i = 1#1) (hc3 : ¬k0_cond3 i = 1#1)
    (x : Vec F S16384x256 .f32) (w : Vec F S64x256 .f32) (E : Set ℕ) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__router_kernel i a1 h1 a2 h2 a3 h3) K := by
  simp only [cc0__router_kernel_eq_skeleton]; unfold cc0__router_kernel_skel
  unfold owns
  iintro ⟨⟨%f1, %hf1, H1⟩, ⟨%f2, %hf2, H2⟩, ⟨%d3, %f3, -, H3⟩, Hk⟩
  obtain rfl := h1.eq_unread hf1; obtain rfl := h2.eq_unread hf2
  sl_exec (disch := first | exact hc1 | exact hc2 | exact hc3)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_eq_canon _ _ _ (fun y => ⟨_, List.mem_singleton_self _, View.mem_set_unit_zero off0 inb_S16384x64_S16384x64_0_0 y⟩),
    View.canon_unit_zero off0]
  simp only [View.readAt_eq_ld, h1.read_unread, h2.read_unread, View.ld_unit_zero (S := S16384x256) off0,
    View.ld_unit_zero (S := S64x256) off0, View.ld_unit_zero (S := S16384x64) off0]

end Cert.KernelIdeal.Hand

end
-- ==== Proof.KI.RunMid.lean ====
/-
  The router body at an inner strip (0 < k < 7).

  Only the second conditional is taken: the body reads the output block back (the running sum of the
  earlier strips' partial products), adds this strip's partial product, and stores the sum over the
  whole block.
-/
import proofs.«181578_g72438918414737_cont_9to1c4b_115_19_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the strips `x` and `w` and the running sum `acc`, the body at a point
    where only the second conditional holds ends with the strips as they were and the output memref at the
    running sum plus the strip's partial product. -/
theorem run_mid (c : Dev nD) (i : grid0.Coords)
    (a1 : Memref sig .tc .vmem S16384x256 .f32) (h1 : a1.IsWhole) (a2 : Memref sig .tc .vmem S64x256 .f32) (h2 : a2.IsWhole)
    (a3 : Memref sig .tc .vmem S16384x64 .f32) (h3 : a3.IsWhole)
    (hc1 : ¬k0_cond1 i = 1#1) (hc2 : k0_cond2 i = 1#1) (hc3 : ¬k0_cond3 i = 1#1)
    (x : Vec F S16384x256 .f32) (w : Vec F S64x256 .f32) (acc : Vec F S16384x64 .f32) (E : Set ℕ) (K : PUnit → sProp 𝕄) :
    iprop(owns (c : Thread nD τ) a1 fullShare x ∗ owns (c : Thread nD τ) a2 fullShare w ∗ owns (c : Thread nD τ) a3 fullShare acc
        ∗ (iprop(owns (c : Thread nD τ) a1 fullShare x ∗ owns (c : Thread nD τ) a2 fullShare w
            ∗ owns (c : Thread nD τ) a3 fullShare (k0_pay2 x w acc)) -∗ K ⟨⟩))
      ⊢ wp frame (wpE (defs₀ (F := F)) Variants.none c none) E (cc0__router_kernel i a1 h1 a2 h2 a3 h3) K := by
  simp only [cc0__router_kernel_eq_skeleton]; unfold cc0__router_kernel_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec (disch := first | exact hc1 | exact hc2 | exact hc3)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_eq_canon _ _ _ (fun y => ⟨_, List.mem_singleton_self _, View.mem_set_unit_zero off0 inb_S16384x64_S16384x64_0_0 y⟩),
    View.canon_unit_zero off0]
  simp only [View.readAt_eq_ld, h1.read_unread, h2.read_unread, h3.read_unread, View.ld_unit_zero (S := S16384x256) off0,
    View.ld_unit_zero (S := S64x256) off0, View.ld_unit_zero (S := S16384x64) off0]

end Cert.KernelIdeal.Hand

end
-- ==== Proof.KI.RunLast.lean ====
/-
  The router body at the last strip (k = 7).

  Only the third conditional is taken: the body reads the running sum back, adds the last strip's
  partial product, takes the maximum with zero entry by entry, and stores that over the whole block.
-/
import proofs.«181578_g72438918414737_cont_9to1c4b_115_19_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the strips `x` and `w` and the running sum `acc`, the body at a point
    where only the third conditional holds ends with the strips as they were and the output memref at the
    running sum plus the strip's partial product, clamped below at zero. -/
theorem run_last (c : Dev nD) (i : grid0.Coords)
    (a1 : Memref sig .tc .vmem S16384x256 .f32) (h1 : a1.IsWhole) (a2 : Memref sig .tc .vmem S64x256 .f32) (h2 : a2.IsWhole)
    (a3 : Memref sig .tc .vmem S16384x64 .f32) (h3 : a3.IsWhole)
    (hc1 : ¬k0_cond1 i = 1#1) (hc2 : ¬k0_cond2 i = 1#1) (hc3 : k0_cond3 i = 1#1)
    (x : Vec F S16384x256 .f32) (w : Vec F S64x256 .f32) (acc : Vec F S16384x64 .f32) (E : Set ℕ) (K : PUnit → sProp 𝕄) :
    iprop(owns (c : Thread nD τ) a1 fullShare x ∗ owns (c : Thread nD τ) a2 fullShare w ∗ owns (c : Thread nD τ) a3 fullShare acc
        ∗ (iprop(owns (c : Thread nD τ) a1 fullShare x ∗ owns (c : Thread nD τ) a2 fullShare w
            ∗ owns (c : Thread nD τ) a3 fullShare (k0_pay3 x w acc)) -∗ K ⟨⟩))
      ⊢ wp frame (wpE (defs₀ (F := F)) Variants.none c none) E (cc0__router_kernel i a1 h1 a2 h2 a3 h3) K := by
  simp only [cc0__router_kernel_eq_skeleton]; unfold cc0__router_kernel_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec (disch := first | exact hc1 | exact hc2 | exact hc3)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_eq_canon _ _ _ (fun y => ⟨_, List.mem_singleton_self _, View.mem_set_unit_zero off0 inb_S16384x64_S16384x64_0_0 y⟩),
    View.canon_unit_zero off0]
  simp only [View.readAt_eq_ld, h1.read_unread, h2.read_unread, h3.read_unread, View.ld_unit_zero (S := S16384x256) off0,
    View.ld_unit_zero (S := S64x256) off0, View.ld_unit_zero (S := S16384x64) off0]

end Cert.KernelIdeal.Hand

end
-- ==== Proof.KI.Body.lean ====
/-
  The frame of the router kernel: its run over the eight strips.

  The output block is one whole-array block whose index never moves; it is written back after the last
  strip only.  Between strips its staging buffer carries the running sum: after strip 0 the first partial
  product, after strip k (0 < k < 7) the sum so far plus strip k's partial product, after strip 7 that
  sum clamped below at zero.  `accAt` names these contents by recursion on the strip, and the body's
  three runs (one per conditional) carry one `accAt` to the next.  The two input windows are fetched at
  every strip and only read.
-/
import proofs.«181578_g72438918414737_cont_9to1c4b_115_19_alg».proof.Proof.KI.RunFirst
import proofs.«181578_g72438918414737_cont_9to1c4b_115_19_alg».proof.Proof.KI.RunMid
import proofs.«181578_g72438918414737_cont_9to1c4b_115_19_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Strip `t` of x: rows 0..16383, columns 256·t .. 256·t + 255. -/
abbrev xstrip (c : Dev nD) (t : Fin cfg0.N) : Vec F S16384x256 .f32 := iblk m c 0 t
/-- Strip `t` of W: rows 0..63, columns 256·t .. 256·t + 255. -/
abbrev wstrip (c : Dev nD) (t : Fin cfg0.N) : Vec F S64x256 .f32 := iblk m c 1 t

/-- What the output block's staging buffer holds after strip `n`: the first partial product, then the running
    sum, and after the last strip the running sum clamped below at zero. -/
def accAt (c : Dev nD) : (n : ℕ) → n < cfg0.N → Vec F S16384x64 .f32
  | 0, h => k0_pay1 (xstrip m c ⟨0, h⟩) (wstrip m c ⟨0, h⟩)
  | n + 1, h =>
    if n + 1 = 7 then k0_pay3 (xstrip m c ⟨n + 1, h⟩) (wstrip m c ⟨n + 1, h⟩) (accAt c n (Nat.lt_of_succ_lt h))
    else k0_pay2 (xstrip m c ⟨n + 1, h⟩) (wstrip m c ⟨n + 1, h⟩) (accAt c n (Nat.lt_of_succ_lt h))

theorem accAt_first (c : Dev nD) (t : Fin cfg0.N) (h0 : t.val = 0) :
    accAt m c t.val t.isLt = k0_pay1 (xstrip m c t) (wstrip m c t) := by
  obtain ⟨n, hn⟩ := t
  cases n with
  | zero => rfl
  | succ n => exact absurd h0 (Nat.succ_ne_zero n)

theorem accAt_mid (c : Dev nD) (t : Fin cfg0.N) (h0 : t.val ≠ 0) (h7 : t.val ≠ 7) :
    accAt m c t.val t.isLt = k0_pay2 (xstrip m c t) (wstrip m c t)
      (accAt m c (t.val - 1) (Nat.lt_of_le_of_lt (Nat.sub_le _ _) t.isLt)) := by
  obtain ⟨n, hn⟩ := t
  cases n with
  | zero => exact absurd rfl h0
  | succ n => exact (if_neg h7).trans rfl

theorem accAt_last (c : Dev nD) (t : Fin cfg0.N) (h7 : t.val = 7) :
    accAt m c t.val t.isLt = k0_pay3 (xstrip m c t) (wstrip m c t)
      (accAt m c (t.val - 1) (Nat.lt_of_le_of_lt (Nat.sub_le _ _) t.isLt)) := by
  obtain ⟨n, hn⟩ := t
  cases n with
  | zero => exact absurd h7 (by show ¬(0 : ℕ) = 7; decide)
  | succ n => exact (if_pos h7).trans rfl

/-- The proof data of the pipeline on core `c`: the arrays as the region finds them; after the body each input's
    buffer at its strip and the output's at `accAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = accAt m c t.val t.isLt := by dsimp only [dats]

/-- Each input's current staging buffer holds its strip at every point. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- The output window is live at every grid coordinate. -/
theorem live2_all : ∀ i : cfg0.grid.Coords, cfg0.idle 2 i = false := by
  intro i
  show (!(k0_cond1 i == 1#1) && !(k0_cond2 i == 1#1) && !(k0_cond3 i == 1#1)) = false
  unfold k0_cond1 k0_cond2 k0_cond3
  dsimp only
  generalize i 0 = v
  revert v
  decide +kernel

/-- After the first strip the output's staging buffer holds what the strip before left: the block is not written
    back before the last strip, and the window is live and uncut. -/
theorem before_o (c : Dev nD) (t : Fin cfg0.N) (h0 : t.val ≠ 0) (d) :
    (dats m 0 c).before 2 t d = accAt m c (t.val - 1) (Nat.lt_of_le_of_lt (Nat.sub_le _ _) t.isLt) := by
  have hN : t.val < 8 := lt_of_lt_of_eq t.isLt (show cfg0.N = 8 from N_0)
  rw [Dat.before_out_kept _ 2 rfl t h0 (Bool.eq_false_iff.mpr fun h => by have := (flush0_2 _).mp h; dsimp only at this; omega)
    live2_all (fun _ _ => rfl)]
  dsimp only [dats]

/-- What the body is called with at strip `t`, -/
def bodyPre (c : Dev nD) (t : Fin cfg0.N) : sProp 𝕄 :=
  iprop((dats m 0 c).Φ t.castSucc ∗ (dats m 0 c).owesAt () t.castSucc
    ∗ (∃ d, owns (c : Thread nD τ) (xs t) fullShare ((dats m 0 c).before 0 t d))
    ∗ (∃ d, owns (c : Thread nD τ) (ws t) fullShare ((dats m 0 c).before 1 t d))
    ∗ (∃ d, owns (c : Thread nD τ) (os t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (xs t) fullShare ((dats m 0 c).after 0 t)
    ∗ owns (c : Thread nD τ) (ws t) fullShare ((dats m 0 c).after 1 t)
    ∗ owns (c : Thread nD τ) (os t) fullShare ((dats m 0 c).after 2 t))

set_option maxHeartbeats 800000 in
/-- The body at any strip: the inputs' memrefs hold their strips; the strip number says which conditional is taken;
    after the first strip the output's memref holds the running sum; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  have hN : t.val < 8 := lt_of_lt_of_eq t.isLt (show cfg0.N = 8 from N_0)
  by_cases h0 : t.val = 0
  · rw [accAt_first m c t h0]
    iintro ⟨HΦ, Ho, ⟨%d0, H0⟩, ⟨%d1, H1⟩, ⟨%d2, H2⟩⟩
    iapply (run_first c (grid0.coords t) _ _ _ _ _ _ ((cond1_iff t).mpr h0)
      (fun h => by have := (cond2_iff t).mp h; omega) (fun h => by have := (cond3_iff t).mp h; omega)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_o m c t h0]
    by_cases h7 : t.val = 7
    · rw [accAt_last m c t h7]
      iintro ⟨HΦ, Ho, ⟨%d0, H0⟩, ⟨%d1, H1⟩, ⟨%d2, H2⟩⟩
      iapply (run_last c (grid0.coords t) _ _ _ _ _ _ (fun h => h0 ((cond1_iff t).mp h))
        (fun h => by have := (cond2_iff t).mp h; omega) ((cond3_iff t).mpr h7)
        (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [accAt_mid m c t h0 h7]
      iintro ⟨HΦ, Ho, ⟨%d0, H0⟩, ⟨%d1, H1⟩, ⟨%d2, H2⟩⟩
      iapply (run_mid c (grid0.coords t) _ _ _ _ _ _ (fun h => h0 ((cond1_iff t).mp h))
        ((cond2_iff t).mpr ⟨Nat.pos_of_ne_zero h0, by omega⟩) (fun h => h7 ((cond3_iff t).mp h))
        (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every strip. -/
theorem body_obligation (c : Dev nD) : BodyObligation (dats (F := F) m 0 c) (defs₀ (F := F)) Variants.none () Set.univ := fun t => by
  rw [bigSep_W0, bigSep_W0, live2 t]
  exact sound_body m c t

set_option backward.isDefEq.respectTransparency.types false in
/-- Every weakly fair execution of @main terminates, every array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The arithmetic of the router, on the extended reals.

  For one output entry the reference contracts a row of x against a row of W over all 2048
  columns, `∑ q, f q` with `f q = x[p, q] · W[e, q]`.  The kernel contracts strip by strip:
  `part f k` is the same sum over the 256 columns of strip k, and the kernel adds the eight
  strip sums up in order, `run f n` being the sum after strip n.  Addition of extended reals
  is commutative and associative (no cancellation is used, so infinities are harmless), hence
  the ordered sum of the eight strip sums is the sum over all columns.
-/
import Idealize.ShloMosaic.Lib.ValueIdx
import Idealize.ShloMosaic.PureOps.Ideal.Laws

noncomputable section

namespace Cert.Router

open scoped BigOperators

/-- Column `j` of strip `k`, as a column of the whole matrix. -/
abbrev col (k : Fin 8) (j : Fin 256) : Fin 2048 :=
  ⟨256 * k.val + j.val, by have := k.isLt; have := j.isLt; omega⟩

/-- The contraction over strip `k` alone. -/
def part (f : Fin 2048 → EReal) (k : Fin 8) : EReal := ∑ j : Fin 256, f (col k j)

/-- The strip sums added up in strip order, through strip `n`. -/
def run (f : Fin 2048 → EReal) : (n : ℕ) → n < 8 → EReal
  | 0, h => part f ⟨0, h⟩
  | n + 1, h => run f n (Nat.lt_of_succ_lt h) + part f ⟨n + 1, h⟩

/-- The contraction over all columns is the sum of the eight strip contractions. -/
theorem sum_eq_sum_part (f : Fin 2048 → EReal) : ∑ q : Fin 2048, f q = ∑ k : Fin 8, part f k := by
  rw [← (finProdFinEquiv (m := 8) (n := 256)).sum_comp f, Fintype.sum_prod_type]
  refine Finset.sum_congr rfl fun k _ => Finset.sum_congr rfl fun j _ => congrArg f (Fin.ext ?_)
  show j.val + 256 * k.val = 256 * k.val + j.val
  omega

/-- The ordered running sum through strip `n` is the sum of the strip contractions up to `n`. -/
theorem run_eq_sum (f : Fin 2048 → EReal) : ∀ (n : ℕ) (h : n < 8),
    run f n h = ∑ k : Fin (n + 1), part f ⟨k.val, by have := k.isLt; omega⟩
  | 0, h => by
    rw [Fin.sum_univ_one]; rfl
  | n + 1, h => by
    rw [Fin.sum_univ_castSucc]
    show run f n (Nat.lt_of_succ_lt h) + part f ⟨n + 1, h⟩ = _
    rw [run_eq_sum f n (Nat.lt_of_succ_lt h)]
    rfl

/-- After the last strip the ordered running sum is the contraction over all columns. -/
theorem run_last (f : Fin 2048 → EReal) : run f 7 (by decide) = ∑ q : Fin 2048, f q := by
  rw [run_eq_sum, sum_eq_sum_part]

end Cert.Router

end
-- ==== Proof.KI.Value.lean ====
/-
  What the router kernel's result array holds, on the extended reals.

  Entry (p, e) of the result is `max (∑ q, x[p, q] · W[e, q]) 0`.  The kernel reaches it strip by strip:
  strip t of x is the columns 256·t .. 256·t + 255 of x (and likewise for W), the partial product of
  a strip at (p, e) is the contraction over those 256 columns, the output block carries the ordered sum
  of the strips seen so far, and the last strip clamps below at zero.  The one write-back, after the
  last strip, writes the whole array.
-/
import proofs.«181578_g72438918414737_cont_9to1c4b_115_19_alg».proof.Proof.KI.Body
import proofs.«181578_g72438918414737_cont_9to1c4b_115_19_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Router
open scoped BigOperators

/-! ## The strips, read through their windows -/

section Strips
variable {F : FTy → Type} [FloatOps F]
variable (m : (ℓ : Loc nD τ sig) → Buf (Elt F) ℓ)

/-- The two argument arrays as the region finds them. -/
abbrev xarr (c : Dev nD) : Vec F S16384x2048 .f32 := V m c main_arg0
abbrev warr (c : Dev nD) : Vec F S64x2048 .f32 := V m c main_arg1

/-- Both input windows sit at block row 0 and block column `t` at strip `t`. -/
theorem idx_x : ∀ t : Fin cfg0.N, win0_0.index t 0 = 0 ∧ win0_0.index t 1 = t.val :=
  (by decide +kernel : ∀ t : Fin grid0.N, win0_0.index t 0 = 0 ∧ win0_0.index t 1 = t.val)
theorem idx_w : ∀ t : Fin cfg0.N, win0_1.index t 0 = 0 ∧ win0_1.index t 1 = t.val :=
  (by decide +kernel : ∀ t : Fin grid0.N, win0_1.index t 0 = 0 ∧ win0_1.index t 1 = t.val)

/-- A grid point as a strip number below eight. -/
abbrev strip (t : Fin cfg0.N) : Fin 8 := ⟨t.val, lt_of_lt_of_eq t.isLt N_0⟩

/-- Entry (p, j) of strip `t` of x is entry (p, 256·t + j) of x. -/
theorem xstrip_apply (c : Dev nD) (t : Fin cfg0.N) (p : Fin 16384) (j : Fin 256) :
    xstrip m c t (ix2 p j) = xarr m c (ix2 p (col (strip t) j)) := by
  show iblk m c 0 t (ix2 p j) = V m c main_arg0 (ix2 p (col (strip t) j))
  unfold iblk
  rw [View.read_apply]
  show V m c main_arg0 _ = V m c main_arg0 _
  congr 1
  funext a
  apply Fin.ext
  match a with
  | ⟨0, _⟩ => show win0_0.index t 0 * 16384 + 1 * p.val = p.val; rw [(idx_x t).1]; omega
  | ⟨1, _⟩ => show win0_0.index t 1 * 256 + 1 * j.val = 256 * t.val + j.val; rw [(idx_x t).2]; omega

/-- Entry (e, j) of strip `t` of W is entry (e, 256·t + j) of W. -/
theorem wstrip_apply (c : Dev nD) (t : Fin cfg0.N) (e : Fin 64) (j : Fin 256) :
    wstrip m c t (ix2 e j) = warr m c (ix2 e (col (strip t) j)) := by
  show iblk m c 1 t (ix2 e j) = V m c main_arg1 (ix2 e (col (strip t) j))
  unfold iblk
  rw [View.read_apply]
  show V m c main_arg1 _ = V m c main_arg1 _
  congr 1
  funext a
  apply Fin.ext
  match a with
  | ⟨0, _⟩ => show win0_1.index t 0 * 64 + 1 * e.val = e.val; rw [(idx_w t).1]; omega
  | ⟨1, _⟩ => show win0_1.index t 1 * 256 + 1 * j.val = 256 * t.val + j.val; rw [(idx_w t).2]; omega

/-! ## The write-back -/

/-- The result: what the output block holds after the last strip, as contents of the result array (its one block
    is the whole array). -/
abbrev result (c : Dev nD) : Buf (Elt F) ((c : Thread nD τ).loc main_v0) :=
  accAt m c 7 (by rw [show cfg0.N = 8 from N_0]; decide)

/-- The one write-back, after strip 7, writes it: block (0, 0) of the [16384, 64] array at zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after_o]
  have i0 : win0_2.index t0_7 0 = 0 := by decide +kernel
  have i1 : win0_2.index t0_7 1 = 0 := by decide +kernel
  have hz' : (fun a => win0_2.index t0_7 a * main_v0.ty.shape.size a) = fun _ => 0 := funext fun a => by
    match a with
    | ⟨0, _⟩ => show win0_2.index t0_7 0 * _ = 0; rw [i0, Nat.zero_mul]
    | ⟨1, _⟩ => show win0_2.index t0_7 1 * _ = 0; rw [i1, Nat.zero_mul]
  exact (Memref.read_access_unit_zero (Elt F) main_v0 hz' (fun a => by rw [congrFun hz' a]; simp) (result m c)).symm

/-- So the result array ends holding what the output block held after the last strip. -/
theorem final_o (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 16384 := (i 0).isLt
      have h1 : (i 1 : Nat) < 64 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel, show win0_2.xsize (grid0.coords t0_7) 0 = 16384 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 64 from by decide +kernel]; omega⟩

/-- The run, read: the result array at `result`, the arguments unchanged. -/
theorem run (ρ : Dev nD → PrngReg) : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final_o m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Strips

/-! ## The body's arithmetic at an entry, on the extended reals -/

theorem lhs_ax0 (i : S16384x64.Idx) (q : dot_S16384x256_S64x256_S16384x64_1_1_0_0_n_n.contr.Idx) :
    (dot_S16384x256_S64x256_S16384x64_1_1_0_0_n_n.lhsIdx i q 0).val = (i 0).val := by
  unfold DotDims.lhsIdx
  rw [dif_neg (show ¬(0 : Fin S16384x256.rank) ∈ dot_S16384x256_S64x256_S16384x64_1_1_0_0_n_n.lhsBatch by decide), dif_pos (show (0 : Fin S16384x256.rank) ∈ dot_S16384x256_S64x256_S16384x64_1_1_0_0_n_n.lhsNonContracting by decide)]
  rfl
theorem lhs_ax1 (i : S16384x64.Idx) (q : dot_S16384x256_S64x256_S16384x64_1_1_0_0_n_n.contr.Idx) :
    (dot_S16384x256_S64x256_S16384x64_1_1_0_0_n_n.lhsIdx i q 1).val = (q ⟨0, by decide⟩).val :=
  dot_S16384x256_S64x256_S16384x64_1_1_0_0_n_n.lhsIdx_val_of_single rfl i q
theorem rhs_ax0 (i : S16384x64.Idx) (q : dot_S16384x256_S64x256_S16384x64_1_1_0_0_n_n.contr.Idx) :
    (dot_S16384x256_S64x256_S16384x64_1_1_0_0_n_n.rhsIdx i q 0).val = (i 1).val := by
  unfold DotDims.rhsIdx
  rw [dif_neg (show ¬(0 : Fin S64x256.rank) ∈ dot_S16384x256_S64x256_S16384x64_1_1_0_0_n_n.rhsBatch by decide), dif_pos (show (0 : Fin S64x256.rank) ∈ dot_S16384x256_S64x256_S16384x64_1_1_0_0_n_n.rhsNonContracting by decide)]
  rfl
theorem rhs_ax1 (i : S16384x64.Idx) (q : dot_S16384x256_S64x256_S16384x64_1_1_0_0_n_n.contr.Idx) :
    (dot_S16384x256_S64x256_S16384x64_1_1_0_0_n_n.rhsIdx i q 1).val = (q ⟨0, by decide⟩).val :=
  dot_S16384x256_S64x256_S16384x64_1_1_0_0_n_n.rhsIdx_val_of_single rfl i q

/-- A strip's partial product at entry (p, e): row p of the x strip against row e of the W strip, over the strip's
    256 columns (the narrowing to bf16 is the identity on extended reals, and the accumulator is the zero splat). -/
theorem pay1_apply (x : Vec Ideal S16384x256 .f32) (w : Vec Ideal S64x256 .f32) (p : Fin 16384) (e : Fin 64) :
    k0_pay1 (F := Ideal) x w (ix2 p e) = ∑ j : Fin 256, x (ix2 p j) * w (ix2 e j) := by
  unfold k0_pay1
  simp only [matmul]
  rw [Ideal.matmul_constant_zero_apply, ← Equiv.sum_comp (ValueIdx.contrEquiv1 dot_S16384x256_S64x256_S16384x64_1_1_0_0_n_n 256 rfl rfl).symm]
  refine Finset.sum_congr rfl fun k _ => ?_
  have hk := ValueIdx.contrEquiv1_symm_val dot_S16384x256_S64x256_S16384x64_1_1_0_0_n_n 256 rfl rfl k
  have el : dot_S16384x256_S64x256_S16384x64_1_1_0_0_n_n.lhsIdx (ix2 p e) ((ValueIdx.contrEquiv1 dot_S16384x256_S64x256_S16384x64_1_1_0_0_n_n 256 rfl rfl).symm k) = ix2 p k := funext fun a => Fin.ext (by
    match a with
    | ⟨0, _⟩ => exact lhs_ax0 _ _
    | ⟨1, _⟩ => exact (lhs_ax1 _ _).trans hk)
  have er : dot_S16384x256_S64x256_S16384x64_1_1_0_0_n_n.rhsIdx (ix2 p e) ((ValueIdx.contrEquiv1 dot_S16384x256_S64x256_S16384x64_1_1_0_0_n_n 256 rfl rfl).symm k) = ix2 e k := funext fun a => Fin.ext (by
    match a with
    | ⟨0, _⟩ => exact rhs_ax0 _ _
    | ⟨1, _⟩ => exact (rhs_ax1 _ _).trans hk)
  rw [el, er]
  rfl

/-- An inner strip adds its partial product to the running sum, entry by entry. -/
theorem pay2_apply (x : Vec Ideal S16384x256 .f32) (w : Vec Ideal S64x256 .f32) (acc : Vec Ideal S16384x64 .f32) (i : S16384x64.Idx) :
    k0_pay2 (F := Ideal) x w acc i = acc i + k0_pay1 (F := Ideal) x w i := by
  unfold k0_pay2
  simp only [shapeCast_self]
  rfl

/-- The last strip adds its partial product and clamps below at zero, entry by entry. -/
theorem pay3_apply (x : Vec Ideal S16384x256 .f32) (w : Vec Ideal S64x256 .f32) (acc : Vec Ideal S16384x64 .f32) (i : S16384x64.Idx) :
    k0_pay3 (F := Ideal) x w acc i = max (acc i + k0_pay1 (F := Ideal) x w i) (Ideal.ofBits .f32 0x00000000#32) := by
  unfold k0_pay3
  simp only [shapeCast_self]
  rfl

/-! ## The running sum, and the result -/

section AtIdeal
variable (m : (ℓ : Loc nD τ sig) → Buf (Elt Ideal) ℓ)

/-- The products the contraction at entry (p, e) sums: column q of row p of x times column q of row e of W. -/
def prods (c : Dev nD) (p : Fin 16384) (e : Fin 64) : Fin 2048 → EReal :=
  fun q => xarr m c (ix2 p q) * warr m c (ix2 e q)

/-- Strip `t`'s partial product at (p, e) is the contraction of `prods` over strip `t`'s columns. -/
theorem pay1_strip (c : Dev nD) (t : Fin cfg0.N) (p : Fin 16384) (e : Fin 64) :
    k0_pay1 (F := Ideal) (xstrip m c t) (wstrip m c t) (ix2 p e) = part (prods m c p e) (strip t) := by
  rw [pay1_apply]
  unfold part prods
  refine Finset.sum_congr rfl fun j _ => ?_
  rw [xstrip_apply, wstrip_apply]

/-- Before the last strip the output block holds, at (p, e), the ordered sum of the strip contractions so far. -/
theorem accAt_eq_run (c : Dev nD) (p : Fin 16384) (e : Fin 64) : ∀ (n : ℕ) (h : n < cfg0.N) (h7 : n < 7),
    accAt m c n h (ix2 p e) = Router.run (prods m c p e) n (by omega)
  | 0, h, _ => by
    show k0_pay1 (F := Ideal) (xstrip m c ⟨0, h⟩) (wstrip m c ⟨0, h⟩) (ix2 p e) = _
    rw [pay1_strip]; rfl
  | n + 1, h, h7 => by
    rw [accAt_mid m c ⟨n + 1, h⟩ (Nat.succ_ne_zero n) (by dsimp only; omega), pay2_apply, pay1_strip]
    show accAt m c n _ (ix2 p e) + _ = _
    rw [accAt_eq_run c p e n (Nat.lt_of_succ_lt h) (by omega)]
    rfl

/-- The result at (p, e): the contraction over all 2048 columns, clamped below at zero. -/
theorem result_apply (c : Dev nD) (p : Fin 16384) (e : Fin 64) :
    result m c (ix2 p e) = max (∑ q : Fin 2048, prods m c p e q) (Ideal.ofBits .f32 0x00000000#32) := by
  have hN : (7 : ℕ) < cfg0.N := by rw [show cfg0.N = 8 from N_0]; decide
  show accAt m c 7 hN (ix2 p e) = _
  rw [accAt_last m c ⟨7, hN⟩ rfl, pay3_apply, pay1_strip]
  show max (accAt m c 6 _ (ix2 p e) + _) _ = _
  rw [accAt_eq_run m c p e 6 (by omega) (by decide), ← Router.run_last]
  rfl

end AtIdeal

end Cert.KernelIdeal.Hand

end
-- ==== Proof.RefValue.lean ====
/-
  The reference at an entry, on the extended reals.

  The reference transposes W, contracts x against the transpose over all 2048 columns, and takes the
  maximum with a zero splat.  At entry (p, e) that is `max (∑ q, x[p, q] · W[e, q]) 0`: the transpose
  only swaps the two coordinates W is read at.
-/
import proofs.«181578_g72438918414737_cont_9to1c4b_115_19_alg».proof.Proof.Gen.ReferenceIdeal.Read
import Idealize.ShloMosaic.Lib.ValueIdx
import Idealize.ShloMosaic.PureOps.Ideal.Laws

noncomputable section

namespace Cert.ReferenceIdeal.RouterRef

open Idealize.ShloMosaic Idealize.ShloMosaic.ValueIdx
open Cert.ReferenceIdeal Cert.ReferenceIdeal.Gen Cert.ReferenceIdeal.Read
open scoped BigOperators

/-- The contraction reads x at (p, q) … -/
theorem lidx_eq (p : Fin 16384) (e : Fin 64) (q : Fin 2048) : lidx_main_v1 (ix2 p e) q = ix2 p q :=
  funext fun a => Fin.ext (by match a with | ⟨0, _⟩ => rfl | ⟨1, _⟩ => rfl)

/-- … and the transposed W at (q, e), which is W at (e, q). -/
theorem ridx_eq (p : Fin 16384) (e : Fin 64) (q : Fin 2048) : idx_main_v0 (ridx_main_v1 (ix2 p e) q) = ix2 e q :=
  funext fun a => Fin.ext (by match a with | ⟨0, _⟩ => rfl | ⟨1, _⟩ => rfl)

/-- The reference's result at entry (p, e). -/
theorem ref_apply (x0 : (⟨S16384x2048, .f32⟩ : BufTy).Contents (Elt Ideal)) (x1 : (⟨S64x2048, .f32⟩ : BufTy).Contents (Elt Ideal))
    (p : Fin 16384) (e : Fin 64) :
    val_main_v2 (F := Ideal) x0 x1 (ix2 p e)
      = max (∑ q : Fin 2048, x0 (ix2 p q) * x1 (ix2 e q)) (Ideal.ofBits .f32 0x00000000#32) := by
  rw [val_main_v2_apply, val_main_v1_apply, val_main_call0_v0_apply, val_main_call0_cst_apply]
  simp only [val_main_v0_apply, lidx_eq, ridx_eq]
  rfl

end Cert.ReferenceIdeal.RouterRef

end
-- ==== Proof.lean ====
/-
  The router's certificate: relu(x · Wᵀ) computed strip by strip against the one-shot reference.

  x is 16384 × 2048 and W is 64 × 2048.  The kernel walks the contraction axis in eight strips of 256
  columns, keeps the output block (all of the 16384 × 64 result) in its staging buffer, overwrites it
  with the first strip's partial product, adds each inner strip's, and at the last strip adds and
  clamps below at zero; the block is written back once, after the last strip.  The reference transposes
  W, contracts over all 2048 columns at once and clamps.

  The three frames: each kernel program's run is carried strip to strip by the body's three cases
  (Proof/KI/Body.lean for the idealized program, Proof/K/Body.lean for the word-level one — the same
  text, generic in the float instance); the reference's is its run with the result dropped.
  The idealization rewrote nothing, so it is preserved trivially.
  The value: on the extended reals the narrowing to bf16 is the identity and the matrix unit's product
  into a zero accumulator is a plain sum, so entry (p, e) of the kernel's result is the ordered sum of
  the eight strip contractions of row p of x against row e of W, clamped (Proof/KI/Value.lean); the sum
  over all columns is the sum of the strip sums by commutativity and associativity alone, so no
  finiteness is used (Proof/Spec.lean); and the reference's entry is the same clamped sum, its transpose
  only swapping the coordinates W is read at (Proof/RefValue.lean).
-/
import proofs.«181578_g72438918414737_cont_9to1c4b_115_19_alg».proof.Defs
import proofs.«181578_g72438918414737_cont_9to1c4b_115_19_alg».proof.Proof.Gen.Kernel
import proofs.«181578_g72438918414737_cont_9to1c4b_115_19_alg».proof.Proof.Gen.KernelIdeal
import proofs.«181578_g72438918414737_cont_9to1c4b_115_19_alg».proof.Proof.Gen.ReferenceIdeal
import proofs.«181578_g72438918414737_cont_9to1c4b_115_19_alg».proof.Proof.Gen.Pre_finite_inputs
import proofs.«181578_g72438918414737_cont_9to1c4b_115_19_alg».proof.Proof.Gen.ReferenceIdeal.Run
import proofs.«181578_g72438918414737_cont_9to1c4b_115_19_alg».proof.Proof.Gen.ReferenceIdeal.Read
import proofs.«181578_g72438918414737_cont_9to1c4b_115_19_alg».proof.Proof.K.Body
import proofs.«181578_g72438918414737_cont_9to1c4b_115_19_alg».proof.Proof.KI.Body
import proofs.«181578_g72438918414737_cont_9to1c4b_115_19_alg».proof.Proof.KI.Value
import proofs.«181578_g72438918414737_cont_9to1c4b_115_19_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result, of arguments that agree with the kernel's, is the kernel's result: entry by entry both
    are the clamped contraction of a row of x against a row of W over all columns. -/
theorem ref_eq_result (m : (ℓ : Loc Cert.KernelIdeal.nD Cert.KernelIdeal.τ Cert.KernelIdeal.sig) → Buf (Elt Ideal) ℓ)
    (c : Dev Cert.KernelIdeal.nD) :
    Cert.ReferenceIdeal.Read.val_main_v2 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Hand.result m c := by
  funext i
  obtain ⟨p, e, rfl⟩ : ∃ (p : Fin 16384) (e : Fin 64), i = ix2 p e := ⟨i 0, i 1, eq_ix2 i⟩
  rw [Cert.ReferenceIdeal.RouterRef.ref_apply]
  exact (Cert.KernelIdeal.Hand.result_apply m c p e).symm

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both idealized programs run, from memories that agree on x and W, to the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, (hagree c).1, (hagree c).2]
  exact ref_eq_result m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
